-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x6 : Shape := ⟨2, ![200000, 6]⟩
abbrev S2x6400000 : Shape := ⟨2, ![2, 6400000]⟩
abbrev S6x16 : Shape := ⟨2, ![6, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S200000x6 : S_.BroadcastsInDim S200000x6 (![] : Fin 0 → Fin S200000x6.rank)
  reducesTo_S200000x6_S_d0_1 : S200000x6.ReducesTo [0, 1] S_
  h_S_ : 0 < S_.numel
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S8 .f32) (main_arg6 : FVec F S8x1 .f32) (main_arg7 : FVec F S1 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S200000x6 .f32) (main_arg1 : IVec S2x6400000 32) (main_arg2 : FVec F S6x16 .f32) (main_arg3 : FVec F S16 .f32) (main_arg4 : FVec F S16x8 .f32) (main_arg5 : FVec F S8 .f32) (main_arg6 : FVec F S8x1 .f32) (main_arg7 : FVec F S1 .f32) : IVec S_ 1 :=
  let main_v0 : FVec F S200000x6 .f32 := Host.absf main_arg0
  let main_cst : FVec F S_ .f32 := constant S_ .f32 0x7F800000#32
  let main_v1 : FVec F S200000x6 .f32 := broadcastInDim S200000x6 ![] bcast_S_S200000x6 main_cst
  let main_v2 : IVec S200000x6 1 := cmpf .olt main_v0 main_v1
  let main_c : IVec S_ 1 := constantI S_ 1 1#1
  let main_v3 : IVec S_ 1 := (fun x v => Host.reduce IntOp.andi x v reducesTo_S200000x6_S_d0_1 h_S_) main_v2 main_c
  let main_v4 : FVec F S6x16 .f32 := Host.absf main_arg2
  let main_cst_0 : FVec F S_ .f32 := constant S_ .f32 0x7F800000#32
  let main_v5 : FVec F S6x16 .f32 := broadcastInDim S6x16 ![] bcast_S_S6x16 main_cst_0
  let main_v6 : IVec S6x16 1 := cmpf .olt main_v4 main_v5
  let main_c_1 : IVec S_ 1 := constantI S_ 1 1#1
  let main_v7 : IVec S_ 1 := (fun x v => Host.reduce IntOp.andi x v reducesTo_S6x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_arg6 main_arg7 main_v13 main_v16
-- ==== Kernel.lean ====
abbrev S200000x6 : Shape := ⟨2, ![200000, 6]⟩
abbrev S2x6400000 : Shape := ⟨2, ![2, 6400000]⟩
abbrev S6x16 : Shape := ⟨2, ![6, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S10000x6 : Shape := ⟨2, ![10000, 6]⟩
abbrev S10000x16 : Shape := ⟨2, ![10000, 16]⟩
abbrev S6600000x16 : Shape := ⟨2, ![6600000, 16]⟩
abbrev S1x16 : Shape := ⟨2, ![1, 16]⟩
abbrev S200000x8 : Shape := ⟨2, ![200000, 8]⟩
abbrev S10000x8 : Shape := ⟨2, ![10000, 8]⟩
abbrev S6600000x8 : Shape := ⟨2, ![6600000, 8]⟩
abbrev S1x8 : Shape := ⟨2, ![1, 8]⟩
abbrev S1x1 : Shape := ⟨2, ![1, 1]⟩
abbrev S200000x1 : Shape := ⟨2, ![200000, 1]⟩
abbrev S10000x1 : Shape := ⟨2, ![10000, 1]⟩

abbrev nBuf : Space → Nat
  | .hbm => 86
  | .vmem => 18
  | .smem => 0
  | _ => 0

abbrev bufTy : (tb : Table) → Fin (tcTables nBuf tb) → BufTy
  | .hbm, ⟨0, _⟩ => ⟨S200000x6, .f32⟩
  | .hbm, ⟨1, _⟩ => ⟨S2x6400000, .i32⟩
  | .hbm, ⟨2, _⟩ => ⟨S6x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1, .f32⟩
  | .hbm, ⟨7, _⟩ => ⟨S1, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S200000, .i32⟩
  | .hbm, ⟨13, _⟩ => ⟨S6600000, .i32⟩
  | .hbm, ⟨14, _⟩ => ⟨S6600000, .i32⟩
  | .hbm, ⟨15, _⟩ => ⟨S_, .f32⟩
  | .hbm, ⟨16, _⟩ => ⟨S6600000, .f32⟩
  | .hbm, ⟨17, _⟩ => ⟨S_, .f32⟩
  | .hbm, ⟨18, _⟩ => ⟨S200000, .f32⟩
  | .hbm, ⟨19, _⟩ => ⟨S6600000x1, .i32⟩
  | .hbm, ⟨20, _⟩ => ⟨S200000, .f32⟩
  | .hbm, ⟨21, _⟩ => ⟨S_, .f32⟩
  | .hbm, ⟨22, _⟩ => ⟨S200000, .f32⟩
  | .hbm, ⟨23, _⟩ => ⟨S200000, .i1⟩
  | .hbm, ⟨24, _⟩ => ⟨S200000, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .i32⟩
  | .hbm, ⟨30, _⟩ => ⟨S6600000, .i32⟩
  | .hbm, ⟨31, _⟩ => ⟨S6600000, .i1⟩
  | .hbm, ⟨32, _⟩ => ⟨S_, .i32⟩
  | .hbm, ⟨33, _⟩ => ⟨S6600000, .i32⟩
  | .hbm, ⟨34, _⟩ => ⟨S6600000, .i32⟩
  | .hbm, ⟨35, _⟩ => ⟨S6600000, .i32⟩
  | .hbm, ⟨36, _⟩ => ⟨S6600000x1, .i32⟩
  | .hbm, ⟨37, _⟩ => ⟨S6600000, .f32⟩
  | .hbm, ⟨38, _⟩ => ⟨S_, .i32⟩
  | .hbm, ⟨39, _⟩ => ⟨S6600000, .i32⟩
  | .hbm, ⟨40, _⟩ => ⟨S6600000, .i1⟩
  | .hbm, ⟨41, _⟩ => ⟨S_, .i32⟩
  | .hbm, ⟨42, _⟩ => ⟨S6600000, .i32⟩
  | .hbm, ⟨43, _⟩ => ⟨S6600000, .i32⟩
  | .hbm, ⟨44, _⟩ => ⟨S6600000, .i32⟩
  | .hbm, ⟨45, _⟩ => ⟨S6600000x1, .i32⟩
  | .hbm, ⟨46, _⟩ => ⟨S6600000, .f32⟩
  | .hbm, ⟨47, _⟩ => ⟨S6600000, .f32⟩
  | .hbm, ⟨48, _⟩ => ⟨S200000x16, .f32⟩
  | .hbm, ⟨49, _⟩ => ⟨S_, .i32⟩
  | .hbm, ⟨50, _⟩ => ⟨S6600000, .i32⟩
  | .hbm, ⟨51, _⟩ => ⟨S6600000, .i1⟩
  | .hbm, ⟨52, _⟩ => ⟨S_, .i32⟩
  | .hbm, ⟨53, _⟩ => ⟨S6600000, .i32⟩
  | .hbm, ⟨54, _⟩ => ⟨S6600000, .i32⟩
  | .hbm, ⟨55, _⟩ => ⟨S6600000, .i32⟩
  | .hbm, ⟨56, _⟩ => ⟨S6600000x1, .i32⟩
  | .hbm, ⟨57, _⟩ => ⟨S6600000x16, .f32⟩
  | .hbm, ⟨58, _⟩ => ⟨S6600000x1, .f32⟩
  | .hbm, ⟨59, _⟩ => ⟨S6600000x16, .f32⟩
  | .hbm, ⟨60, _⟩ => ⟨S6600000x16, .f32⟩
  | .hbm, ⟨61, _⟩ => ⟨S_, .f32⟩
  | .hbm, ⟨62, _⟩ => ⟨S200000x16, .f32⟩
  | .hbm, ⟨63, _⟩ => ⟨S6600000x1, .i32⟩
  | .hbm, ⟨64, _⟩ => ⟨S200000x16, .f32⟩
  | .hbm, ⟨65, _⟩ => ⟨S1x16, .f32⟩
  | .hbm, ⟨66, _⟩ => ⟨S200000x8, .f32⟩
  | .hbm, ⟨67, _⟩ => ⟨S_, .i32⟩
  | .hbm, ⟨68, _⟩ => ⟨S6600000, .i32⟩
  | .hbm, ⟨69, _⟩ => ⟨S6600000, .i1⟩
  | .hbm, ⟨70, _⟩ => ⟨S_, .i32⟩
  | .hbm, ⟨71, _⟩ => ⟨S6600000, .i32⟩
  | .hbm, ⟨72, _⟩ => ⟨S6600000, .i32⟩
  | .hbm, ⟨73, _⟩ => ⟨S6600000, .i32⟩
  | .hbm, ⟨74, _⟩ => ⟨S6600000x1, .i32⟩
  | .hbm, ⟨75, _⟩ => ⟨S6600000x8, .f32⟩
  | .hbm, ⟨76, _⟩ => ⟨S6600000x1, .f32⟩
  | .hbm, ⟨77, _⟩ => ⟨S6600000x8, .f32⟩
  | .hbm, ⟨78, _⟩ => ⟨S6600000x8, .f32⟩
  | .hbm, ⟨79, _⟩ => ⟨S_, .f32⟩
  | .hbm, ⟨80, _⟩ => ⟨S200000x8, .f32⟩
  | .hbm, ⟨81, _⟩ => ⟨S6600000x1, .i32⟩
  | .hbm, ⟨82, _⟩ => ⟨S200000x8, .f32⟩
  | .hbm, ⟨83, _⟩ => ⟨S1x8, .f32⟩
  | .hbm, ⟨84, _⟩ => ⟨S1x1, .f32⟩
  | .hbm, ⟨85, _⟩ => ⟨S200000x1, .f32⟩
  | .local _ .vmem, ⟨0, _⟩ => ⟨S10000x6, .f32⟩
  | .local _ .vmem, ⟨1, _⟩ => ⟨S10000x6, .f32⟩
  | .local _ .vmem, ⟨2, _⟩ => ⟨S6x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x8, .f32⟩
  | .local _ .vmem, ⟨9, _⟩ => ⟨S10000x8, .f32⟩
  | .local _ .vmem, ⟨10, _⟩ => ⟨S10000x8, .f32⟩
  | .local _ .vmem, ⟨11, _⟩ => ⟨S10000x8, .f32⟩
  | .local _ .vmem, ⟨12, _⟩ => ⟨S10000x8, .f32⟩
  | .local _ .vmem, ⟨13, _⟩ => ⟨S1x8, .f32⟩
  | .local _ .vmem, ⟨14, _⟩ => ⟨S8x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S200000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x16_S6x16_0_0 : ∀ a, (![0, 0] : Fin 2 → Nat) a + S6x16.size a ≤ S6x16.size a
  h_S6x16 : 0 < S6x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  shapeCasts_S8_S1x8 : S8.ShapeCasts S1x8
  shapeCasts_S1_S1x1 : S1.ShapeCasts S1x1
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x6_S6x16_S10000x16_1_0_0_1_n_n_wf : DotDims.WF S10000x6 S6x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x8_S10000x8_1_0_0_1_n_n_wf : DotDims.WF S10000x16 S16x8 S10000x8 [1] [0] [0] [1] [] []
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S10000x8_S8x1_S10000x1_1_0_0_1_n_n_wf : DotDims.WF S10000x8 S8x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S200000x6.size a
  hwx0_0 : ∀ i : grid0.Coords, EltTy.bits .f32 = 32 ∨ (Rect.block (s := S200000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x16.size a ≤ S6x16.size a
  hwx0_1 : ∀ i : grid0.Coords, EltTy.bits .f32 = 32 ∨ (Rect.block (s := S6x16) S6x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x8.size a ≤ S200000x8.size a
  hwx1_3 : ∀ i : grid1.Coords, EltTy.bits .f32 = 32 ∨ (Rect.block (s := S200000x8) S10000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S200000x8.size a
  hwx2_0 : ∀ i : grid2.Coords, EltTy.bits .f32 = 32 ∨ (Rect.block (s := S200000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x1.size a ≤ S8x1.size a
  hwx2_2 : ∀ i : grid2.Coords, EltTy.bits .f32 = 32 ∨ (Rect.block (s := S8x1) S8x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S200000x1.size a
  hwx2_4 : ∀ i : grid2.Coords, EltTy.bits .f32 = 32 ∨ (Rect.block (s := S200000x1) S10000x1.size (cc2_transform_4 i) (hinb2_4 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x6_S6x16_S10000x16_1_0_0_1_n_n : DotDims S10000x6 S6x16 S10000x16 where
  lhsContracting := [1]
  rhsContracting := [0]
  lhsNonContracting := [0]
  rhsNonContracting := [1]
  lhsBatch := []
  rhsBatch := []
  wf := dot_S10000x6_S6x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S10000x8_S8x1_S10000x1_1_0_0_1_n_n : DotDims S10000x8 S8x1 S10000x1 where
  lhsContracting := [1]
  rhsContracting := [0]
  lhsNonContracting := [0]
  rhsNonContracting := [1]
  lhsBatch := []
  rhsBatch := []
  wf := dot_S10000x8_S8x1_S10000x1_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S8x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x6 : Shape := ⟨2, ![200000, 6]⟩
abbrev S2x6400000 : Shape := ⟨2, ![2, 6400000]⟩
abbrev S6x16 : Shape := ⟨2, ![6, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x6400000 : Shape := ⟨2, ![1, 6400000]⟩
abbrev S6400000 : Shape := ⟨1, ![6400000]⟩
abbrev S200000x16 : Shape := ⟨2, ![200000, 16]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x8 : Shape := ⟨2, ![200000, 8]⟩
abbrev S6600000x8 : Shape := ⟨2, ![6600000, 8]⟩
abbrev S1x8 : Shape := ⟨2, ![1, 8]⟩
abbrev S200000x1 : Shape := ⟨2, ![200000, 1]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S200000x6, .f32⟩
  | 1 => ⟨S2x6400000, .i32⟩
  | 2 => ⟨S6x16, .f32⟩
  | 3 => ⟨S16, .f32⟩
  | 4 => ⟨S16x8, .f32⟩
  | 5 => ⟨S8, .f32⟩
  | 6 => ⟨S8x1, .f32⟩
  | 7 => ⟨S1, .f32⟩
  | 8 => ⟨S1x6400000, .i32⟩
  | 9 => ⟨S6400000, .i32⟩
  | 10 => ⟨S1x6400000, .i32⟩
  | 11 => ⟨S6400000, .i32⟩
  | 12 => ⟨S200000x16, .f32⟩
  | 13 => ⟨S200000, .i32⟩
  | 14 => ⟨S6600000, .i32⟩
  | 15 => ⟨S6600000, .i32⟩
  | 16 => ⟨S_, .f32⟩
  | 17 => ⟨S6600000, .f32⟩
  | 18 => ⟨S_, .f32⟩
  | 19 => ⟨S200000, .f32⟩
  | 20 => ⟨S6600000x1, .i32⟩
  | 21 => ⟨S200000, .f32⟩
  | 22 => ⟨S_, .f32⟩
  | 23 => ⟨S200000, .f32⟩
  | 24 => ⟨S200000, .i1⟩
  | 25 => ⟨S200000, .f32⟩
  | 26 => ⟨S_, .f32⟩
  | 27 => ⟨S_, .f32⟩
  | 28 => ⟨S200000, .f32⟩
  | 29 => ⟨S200000, .f32⟩
  | 30 => ⟨S_, .i32⟩
  | 31 => ⟨S6600000, .i32⟩
  | 32 => ⟨S6600000, .i1⟩
  | 33 => ⟨S_, .i32⟩
  | 34 => ⟨S6600000, .i32⟩
  | 35 => ⟨S6600000, .i32⟩
  | 36 => ⟨S6600000, .i32⟩
  | 37 => ⟨S6600000x1, .i32⟩
  | 38 => ⟨S6600000, .f32⟩
  | 39 => ⟨S_, .i32⟩
  | 40 => ⟨S6600000, .i32⟩
  | 41 => ⟨S6600000, .i1⟩
  | 42 => ⟨S_, .i32⟩
  | 43 => ⟨S6600000, .i32⟩
  | 44 => ⟨S6600000, .i32⟩
  | 45 => ⟨S6600000, .i32⟩
  | 46 => ⟨S6600000x1, .i32⟩
  | 47 => ⟨S6600000, .f32⟩
  | 48 => ⟨S6600000, .f32⟩
  | 49 => ⟨S_, .i32⟩
  | 50 => ⟨S6600000, .i32⟩
  | 51 => ⟨S6600000, .i1⟩
  | 52 => ⟨S_, .i32⟩
  | 53 => ⟨S6600000, .i32⟩
  | 54 => ⟨S6600000, .i32⟩
  | 55 => ⟨S6600000, .i32⟩
  | 56 => ⟨S6600000x1, .i32⟩
  | 57 => ⟨S6600000x16, .f32⟩
  | 58 => ⟨S6600000x1, .f32⟩
  | 59 => ⟨S6600000x16, .f32⟩
  | 60 => ⟨S6600000x16, .f32⟩
  | 61 => ⟨S_, .f32⟩
  | 62 => ⟨S200000x16, .f32⟩
  | 63 => ⟨S6600000x1, .i32⟩
  | 64 => ⟨S200000x16, .f32⟩
  | 65 => ⟨S1x16, .f32⟩
  | 66 => ⟨S200000x16, .f32⟩
  | 67 => ⟨S200000x16, .f32⟩
  | 68 => ⟨S_, .f32⟩
  | 69 => ⟨S200000x16, .f32⟩
  | 70 => ⟨S200000x16, .f32⟩
  | 71 => ⟨S200000x8, .f32⟩
  | 72 => ⟨S200000, .i32⟩
  | 73 => ⟨S6600000, .i32⟩
  | 74 => ⟨S6600000, .i32⟩
  | 75 => ⟨S_, .f32⟩
  | 76 => ⟨S6600000, .f32⟩
  | 77 => ⟨S_, .f32⟩
  | 78 => ⟨S200000, .f32⟩
  | 79 => ⟨S6600000x1, .i32⟩
  | 80 => ⟨S200000, .f32⟩
  | 81 => ⟨S_, .f32⟩
  | 82 => ⟨S200000, .f32⟩
  | 83 => ⟨S200000, .i1⟩
  | 84 => ⟨S200000, .f32⟩
  | 85 => ⟨S_, .f32⟩
  | 86 => ⟨S_, .f32⟩
  | 87 => ⟨S200000, .f32⟩
  | 88 => ⟨S200000, .f32⟩
  | 89 => ⟨S_, .i32⟩
  | 90 => ⟨S6600000, .i32⟩
  | 91 => ⟨S6600000, .i1⟩
  | 92 => ⟨S_, .i32⟩
  | 93 => ⟨S6600000, .i32⟩
  | 94 => ⟨S6600000, .i32⟩
  | 95 => ⟨S6600000, .i32⟩
  | 96 => ⟨S6600000x1, .i32⟩
  | 97 => ⟨S6600000, .f32⟩
  | 98 => ⟨S_, .i32⟩
  | 99 => ⟨S6600000, .i32⟩
  | 100 => ⟨S6600000, .i1⟩
  | 101 => ⟨S_, .i32⟩
  | 102 => ⟨S6600000, .i32⟩
  | 103 => ⟨S6600000, .i32⟩
  | 104 => ⟨S6600000, .i32⟩
  | 105 => ⟨S6600000x1, .i32⟩
  | 106 => ⟨S6600000, .f32⟩
  | 107 => ⟨S6600000, .f32⟩
  | 108 => ⟨S_, .i32⟩
  | 109 => ⟨S6600000, .i32⟩
  | 110 => ⟨S6600000, .i1⟩
  | 111 => ⟨S_, .i32⟩
  | 112 => ⟨S6600000, .i32⟩
  | 113 => ⟨S6600000, .i32⟩
  | 114 => ⟨S6600000, .i32⟩
  | 115 => ⟨S6600000x1, .i32⟩
  | 116 => ⟨S6600000x8, .f32⟩
  | 117 => ⟨S6600000x1, .f32⟩
  | 118 => ⟨S6600000x8, .f32⟩
  | 119 => ⟨S6600000x8, .f32⟩
  | 120 => ⟨S_, .f32⟩
  | 121 => ⟨S200000x8, .f32⟩
  | 122 => ⟨S6600000x1, .i32⟩
  | 123 => ⟨S200000x8, .f32⟩
  | 124 => ⟨S1x8, .f32⟩
  | 125 => ⟨S200000x8, .f32⟩
  | 126 => ⟨S200000x8, .f32⟩
  | 127 => ⟨S_, .f32⟩
  | _ => ⟨S200000x6, .f32⟩

abbrev hbmTy0_1 (i : Nat) : BufTy := match i % 128 with
  | 0 => ⟨S200000x8, .f32⟩
  | 1 => ⟨S200000x8, .f32⟩
  | 2 => ⟨S200000x1, .f32⟩
  | 3 => ⟨S1x1, .f32⟩
  | 4 => ⟨S200000x1, .f32⟩
  | 5 => ⟨S200000x1, .f32⟩
  | 6 => ⟨S200000x1, .f32⟩
  | 7 => ⟨S200000x1, .f32⟩
  | 8 => ⟨S_, .f32⟩
  | 9 => ⟨S200000x1, .f32⟩
  | 10 => ⟨S200000x1, .f32⟩
  | 11 => ⟨S_, .f32⟩
  | 12 => ⟨S200000x1, .f32⟩
  | 13 => ⟨S200000x1, .f32⟩
  | _ => ⟨S200000x6, .f32⟩

abbrev hbmTy (i : Nat) : BufTy := match i / 128 with
  | 0 => hbmTy0_0 i
  | 1 => hbmTy0_1 i
  | _ => ⟨S200000x6, .f32⟩

abbrev bufTy : (tb : Table) → Fin (tcTables nBuf tb) → BufTy
  | .hbm, ⟨i, _⟩ => hbmTy i
  | _, _ => ⟨S200000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  dot_S200000x6_S6x16_S200000x16_1_0_0_1_n_n_wf : DotDims.WF S200000x6 S6x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x8_S200000x8_1_0_0_1_n_n_wf : DotDims.WF S200000x16 S16x8 S200000x8 [1] [0] [0] [1] [] []
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S200000x8_S8x1_S200000x1_1_0_0_1_n_n_wf : DotDims.WF S200000x8 S8x1 S200000x1 [1] [0] [0] [1] [] []

variable [Facts₀]

def dot_S200000x6_S6x16_S200000x16_1_0_0_1_n_n : DotDims S200000x6 S6x16 S200000x16 where
  lhsContracting := [1]
  rhsContracting := [0]
  lhsNonContracting := [0]
  rhsNonContracting := [1]
  lhsBatch := []
  rhsBatch := []
  wf := dot_S200000x6_S6x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x8_S200000x8_1_0_0_1_n_n : DotDims S200000x16 S16x8 S200000x8 where
  lhsContracting := [1]
  rhsContracting := [0]
  lhsNonContracting := [0]
  rhsNonContracting := [1]
  lhsBatch := []
  rhsBatch := []
  wf := dot_S200000x16_S16x8_S200000x8_1_0_0_1_n_n_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S200000x8_S8x1_S200000x1_1_0_0_1_n_n : DotDims S200000x8 S8x1 S200000x1 where
  lhsContracting := [1]
  rhsContracting := [0]
  lhsNonContracting := [0]
  rhsNonContracting := [1]
  lhsBatch := []
  rhsBatch := []
  wf := dot_S200000x8_S8x1_S200000x1_1_0_0_1_n_n_wf

class Facts : Prop extends Facts₀ where

variable [Facts]
-- ==== Proof.Layers.lean ====
/-
  The network both programs compute, layer by layer, as whole-array functions of the argument arrays.

  A graph convolution here is: project the node features by a dense matrix; for every edge (sender s, receiver d), with one
  self loop added per node, weight the sender's projected row by 1/sqrt(deg s) * 1/sqrt(deg d) (deg = number of edges a node
  receives, self loop included; a node of degree 0 gets weight 0); sum the weighted rows into the receiver's row; add the bias.
  Two such layers with a rectifier after each, then a dense layer to one logit per node and the logistic function.
  The edge list is an integer input, so ids are wrapped once from the negative side before a row is looked up, exactly as the
  host gather of both programs does; nothing here depends on the ids being in range.
-/
import proofs.«113324_j22179211117042_1_alg».proof.Proof.Gen.ReferenceIdeal

noncomputable section

namespace Cert.Gcn

open Cert.ReferenceIdeal Cert.ReferenceIdeal.Gen Idealize.ShloMosaic Idealize.ShloMosaic.TcCoe Idealize.ShloMosaic.StableHlo

variable {F : FTy → Type} [FloatOps F]

/-- Contents of a host array of shape `S` and element type `e`. -/
abbrev Arr (F : FTy → Type) (S : Shape) (e : EltTy) := (⟨S, e⟩ : BufTy).Contents (Elt F)

/-- Senders: row 0 of the edge list, then one self loop per node. -/
def srcIds (ei : Arr F S2x6400000 .i32) : Arr F S6600000 .i32 :=
  concatenate S6600000 0 [⟨S6400000, (shapeCast _ (extractStridedSlice S1x6400000 ![0, 0] ei slices_S2x6400000_S1x6400000_0_0) shapeCasts_S1x6400000_S6400000)⟩, ⟨S200000, (iotaInDim S200000 32 0)⟩] concatenates_S6400000_S200000_S6600000_d0

/-- Receivers: row 1 of the edge list, then one self loop per node. -/
def dstIds (ei : Arr F S2x6400000 .i32) : Arr F S6600000 .i32 :=
  concatenate S6600000 0 [⟨S6400000, (shapeCast _ (extractStridedSlice S1x6400000 ![1, 0] ei slices_S2x6400000_S1x6400000_1_0) shapeCasts_S1x6400000_S6400000)⟩, ⟨S200000, (iotaInDim S200000 32 0)⟩] concatenates_S6400000_S200000_S6600000_d0

/-- An id list as the one-column index array a scatter takes. -/
def idCol (d : Arr F S6600000 .i32) : Arr F S6600000x1 .i32 :=
  broadcastInDim S6600000x1 ![0] bcast_S6600000_S6600000x1_0 d

/-- An id list, negative ids moved up by the node count, as the one-column index array a row lookup takes. -/
def wrapCol (s : Arr F S6600000 .i32) : Arr F S6600000x1 .i32 :=
  broadcastInDim S6600000x1 ![0] bcast_S6600000_S6600000x1_0 (select (cmpi .slt s (broadcastInDim S6600000 ![] bcast_S_S6600000 (constantI S_ 32 0#32))) (addi s (broadcastInDim S6600000 ![] bcast_S_S6600000 (constantI S_ 32 200000#32))) s)

/-- How many edges each node receives (self loop included). -/
def degree (d : Arr F S6600000 .i32) : Arr F S200000 .f32 :=
  Host.scatterAdd scatter_S200000_S6600000x1_S6600000_n_0_0_1 (broadcastInDim S200000 ![] bcast_S_S200000 (constant S_ .f32 0x00000000#32)) (idCol d) (broadcastInDim S6600000 ![] bcast_S_S6600000 (constant S_ .f32 0x3F800000#32))

/-- 1/sqrt(degree) where the degree is positive, 0 elsewhere. -/
def invSqrtDeg (d : Arr F S6600000 .i32) : Arr F S200000 .f32 :=
  select (cmpf .ogt (degree d) (broadcastInDim S200000 ![] bcast_S_S200000 (constant S_ .f32 0x00000000#32))) (Host.rsqrt (degree d)) (broadcastInDim S200000 ![] bcast_S_S200000 (id (constant S_ .f32 0x00000000#32)))

/-- The weight of every edge: 1/sqrt(deg sender) * 1/sqrt(deg receiver). -/
def edgeNorm (s d : Arr F S6600000 .i32) : Arr F S6600000 .f32 :=
  mulf (Host.gather gather_S200000_S6600000x1_S6600000_n_0_n_n_0_1_1 (invSqrtDeg d) (wrapCol s)) (Host.gather gather_S200000_S6600000x1_S6600000_n_0_n_n_0_1_1 (invSqrtDeg d) (wrapCol d))

/-- Sum over the edges into each receiver of the sender's 16-wide row times the edge's weight. -/
def aggregate16 (h : Arr F S200000x16 .f32) (s d : Arr F S6600000 .i32) (w : Arr F S6600000 .f32) : Arr F S200000x16 .f32 :=
  Host.scatterAdd scatter_S200000x16_S6600000x1_S6600000x16_1_0_0_1 (broadcastInDim S200000x16 ![] bcast_S_S200000x16 (constant S_ .f32 0x00000000#32)) (idCol d) (mulf (Host.gather gather_S200000x16_S6600000x1_S6600000x16_1_0_n_n_0_1_116 h (wrapCol s)) (broadcastInDim S6600000x16 ![0, 1] bcast_S6600000x1_S6600000x16_0_1 (broadcastInDim S6600000x1 ![0] bcast_S6600000_S6600000x1_0 w)))

/-- The same for 8-wide rows. -/
def aggregate8 (h : Arr F S200000x8 .f32) (s d : Arr F S6600000 .i32) (w : Arr F S6600000 .f32) : Arr F S200000x8 .f32 :=
  Host.scatterAdd scatter_S200000x8_S6600000x1_S6600000x8_1_0_0_1 (broadcastInDim S200000x8 ![] bcast_S_S200000x8 (constant S_ .f32 0x00000000#32)) (idCol d) (mulf (Host.gather gather_S200000x8_S6600000x1_S6600000x8_1_0_n_n_0_1_18 h (wrapCol s)) (broadcastInDim S6600000x8 ![0, 1] bcast_S6600000x1_S6600000x8_0_1 (broadcastInDim S6600000x1 ![0] bcast_S6600000_S6600000x1_0 w)))

/-- A bias vector as a one-row matrix. -/
def row16 (b : Arr F S16 .f32) : Arr F S1x16 .f32 := broadcastInDim S1x16 ![1] bcast_S16_S1x16_1 b
def row8 (b : Arr F S8 .f32) : Arr F S1x8 .f32 := broadcastInDim S1x8 ![1] bcast_S8_S1x8_1 b
def row1 (b : Arr F S1 .f32) : Arr F S1x1 .f32 := broadcastInDim S1x1 ![1] bcast_S1_S1x1_1 b

/-- First projection: x · W1. -/
def dense1 (x : Arr F S200000x6 .f32) (w : Arr F S6x16 .f32) : Arr F S200000x16 .f32 :=
  Host.dotGeneral dot_S200000x6_S6x16_S200000x16_1_0_0_1_n_n none x w

/-- max(a + b, 0), the bias row added to every node's row. -/
def biasRelu16 (a : Arr F S200000x16 .f32) (b : Arr F S1x16 .f32) : Arr F S200000x16 .f32 :=
  maximumf (addf a (broadcastInDim S200000x16 ![0, 1] bcast_S1x16_S200000x16_0_1 b)) (broadcastInDim S200000x16 ![] bcast_S_S200000x16 (constant S_ .f32 0x00000000#32))

def biasRelu8 (a : Arr F S200000x8 .f32) (b : Arr F S1x8 .f32) : Arr F S200000x8 .f32 :=
  maximumf (addf a (broadcastInDim S200000x8 ![0, 1] bcast_S1x8_S200000x8_0_1 b)) (broadcastInDim S200000x8 ![] bcast_S_S200000x8 (constant S_ .f32 0x00000000#32))

/-- Second projection: max(a + b, 0) · W2. -/
def dense2 (a : Arr F S200000x16 .f32) (b : Arr F S1x16 .f32) (w : Arr F S16x8 .f32) : Arr F S200000x8 .f32 :=
  Host.dotGeneral dot_S200000x16_S16x8_S200000x8_1_0_0_1_n_n none (biasRelu16 a b) w

/-- The head: 1 / (1 + exp (-(max(a + b, 0) · W + bf))). -/
def dense3 (a : Arr F S200000x8 .f32) (b : Arr F S1x8 .f32) (w : Arr F S8x1 .f32) (bf : Arr F S1x1 .f32) : Arr F S200000x1 .f32 :=
  Host.divf (broadcastInDim S200000x1 ![] bcast_S_S200000x1 (constant S_ .f32 0x3F800000#32)) (addf (broadcastInDim S200000x1 ![] bcast_S_S200000x1 (constant S_ .f32 0x3F800000#32)) (Host.exp (Host.negf (addf (Host.dotGeneral dot_S200000x8_S8x1_S200000x1_1_0_0_1_n_n none (biasRelu8 a b) w) (broadcastInDim S200000x1 ![0, 1] bcast_S1x1_S200000x1_0_1 bf)))))

/-- The whole network as a function of the eight arguments. -/
def network (x : Arr F S200000x6 .f32) (ei : Arr F S2x6400000 .i32) (w1 : Arr F S6x16 .f32) (b1 : Arr F S16 .f32)
    (w2 : Arr F S16x8 .f32) (b2 : Arr F S8 .f32) (wfc : Arr F S8x1 .f32) (bfc : Arr F S1 .f32) : Arr F S200000x1 .f32 :=
  dense3 (aggregate8 (dense2 (aggregate16 (dense1 x w1) (srcIds ei) (dstIds ei) (edgeNorm (srcIds ei) (dstIds ei))) (row16 b1) w2)
    (srcIds ei) (dstIds ei) (edgeNorm (srcIds ei) (dstIds ei))) (row8 b2) wfc (row1 bfc)

end Cert.Gcn

end
-- ==== Proof.Region0.lean ====
/-
  The first projection as the kernel computes it: twenty row blocks of 10000 nodes, each block's 16 outputs the product of the
  block of node features with the whole 6 x 16 weight matrix (the operands pass through bf16, which changes nothing over the
  extended reals, into a zero accumulator). Row r of the result is therefore row r of x times W: the whole-array product
  `Cert.Gcn.dense1`, whatever array the region finds in place of x and W when it is entered.
-/
import proofs.«113324_j22179211117042_1_alg».proof.Proof.Gen.KernelIdeal.Frame
import proofs.«113324_j22179211117042_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.Gcn.Project1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- A block's entry is the sum over the 6 features of feature times weight. -/
theorem block_apply (x0 : Vec Ideal S10000x6 .f32) (x1 : Vec Ideal S6x16 .f32) (j : S10000x16.Idx) :
    k0_pay1 x0 x1 j = ∑ k : dot_S10000x6_S6x16_S10000x16_1_0_0_1_n_n.contr.Idx,
      x0 (dot_S10000x6_S6x16_S10000x16_1_0_0_1_n_n.lhsIdx j k) * x1 (dot_S10000x6_S6x16_S10000x16_1_0_0_1_n_n.rhsIdx j k) := by
  unfold k0_pay1
  exact Ideal.matmul_constant_zero_apply _ _ _ _ j

/-- Where the three windows sit at grid point t: the feature block and the output block at row block t, the weights whole. -/
theorem window_places : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point t writes back is row block t of the whole-array product of the arrays the region finds. -/
theorem flushed_eq (c : Dev nD) (t : Fin cfg0.N) :
    (dat0 V c).flushed 2 t = ((cfg0.win 2).blk t).view.read (Elt Ideal) (dense1 (F := Ideal) (V c main_arg0) (V c main_arg2)) := by
  show (cfg0.win 2).cut (grid0.coords t) ((dat0 V c).after 2 t) = _
  rw [after0_2]
  unfold out0_2
  rw [View.canon_unit_zero origin2]
  simp only [View.ld_unit_zero (S := S10000x6) origin2, View.ld_unit_zero (S := S6x16) origin2]
  obtain ⟨e0, e1, e2, e3, e4, e5⟩ := window_places t
  funext j
  show k0_pay1 (iblk0 V c 0 t) (iblk0 V c 1 t) j = dense1 (F := Idealize.ShloMosaic.Ideal) (V c main_arg0) (V c main_arg2) (((cfg0.win 2).blk t).view.emb j)
  refine (block_apply _ _ j).trans ?_
  unfold dense1
  simp only [Host.dotGeneral]
  rw [Ideal.dotGeneral_apply]
  refine Finset.sum_congr rfl fun k _ => ?_
  have hl : iblk0 V c 0 t (dot_S10000x6_S6x16_S10000x16_1_0_0_1_n_n.lhsIdx j k)
      = V c main_arg0 (ReferenceIdeal.dot_S200000x6_S6x16_S200000x16_1_0_0_1_n_n.lhsIdx (((cfg0.win 2).blk t).view.emb j) k) := by
    show V c main_arg0 (((cfg0.win 0).blk t).view.emb (dot_S10000x6_S6x16_S10000x16_1_0_0_1_n_n.lhsIdx j k)) = _
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 6 + 1 * (k ⟨0, by decide⟩).val = (k ⟨0, by decide⟩).val; omega
  have hr : iblk0 V c 1 t (dot_S10000x6_S6x16_S10000x16_1_0_0_1_n_n.rhsIdx j k)
      = V c main_arg2 (ReferenceIdeal.dot_S200000x6_S6x16_S200000x16_1_0_0_1_n_n.rhsIdx (((cfg0.win 2).blk t).view.emb j) k) := by
    show V c main_arg2 (((cfg0.win 1).blk t).view.emb (dot_S10000x6_S6x16_S10000x16_1_0_0_1_n_n.rhsIdx j k)) = _
    refine congrArg (V c main_arg2) ?_
    funext a; apply Fin.ext
    match a with
    | ⟨0, _⟩ => show win0_1.index t (0 : Fin 2) * 6 + 1 * (k ⟨0, by decide⟩).val = (k ⟨0, by decide⟩).val; omega
    | ⟨1, _⟩ => show win0_1.index t (1 : Fin 2) * 16 + 1 * (j 1).val = win0_2.index t (1 : Fin 2) * 16 + 1 * (j 1).val; omega
  rw [hl, hr]

/-- A node row lies in grid point t's output block iff it is one of the 10000 rows from 10000·t on. -/
theorem mem_block (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Every entry of the result is written by the grid point of its row's block. -/
theorem covered (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 20 := N_0
  let t : Fin cfg0.N := ⟨(i 0).val / 10000, by rw [hN]; omega⟩
  obtain ⟨e0, e1, e2, e3, e4, e5⟩ := window_places t
  have ht : t.val = (i 0).val / 10000 := rfl
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The region leaves in its output array the first projection of the arrays it found. -/
theorem final (c : Dev nD) :
    (dat0 V c).arrAt 2 cfg0.N = dense1 (F := Idealize.ShloMosaic.Ideal) (V c main_arg0) (V c main_arg2) :=
  (dat0 V c).arrAt_eq_of_cover 2 _ (fun t _ => flushed_eq V c t) covered

end Cert.Gcn.Project1

end
-- ==== Proof.Region1.lean ====
/-
  The second projection as the kernel computes it: twenty row blocks of 10000 nodes; each block adds the bias row to the
  aggregated features, clamps at zero, and multiplies by the whole 16 x 8 weight matrix. Row r of the result is row r of
  max(a + b, 0) times W: the whole-array `Cert.Gcn.dense2` of the arrays the region finds when it is entered.
-/
import proofs.«113324_j22179211117042_1_alg».proof.Proof.Gen.KernelIdeal.Frame
import proofs.«113324_j22179211117042_1_alg».proof.Proof.Layers
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.Gcn.Project2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Idealize.ShloMosaic.Ideal) ((c : Thread nD τ).loc b))

theorem origin2 : (![0, 0] : Fin 2 → Nat) = fun _ => 0 := funext fun a => by fin_cases a <;> rfl

/-- A block's entry is the sum over the 16 features of max(feature + bias, 0) times weight. -/
theorem block_apply (x0 : Vec Idealize.ShloMosaic.Ideal S10000x16 .f32) (x1 : Vec Idealize.ShloMosaic.Ideal S1x16 .f32)
    (x2 : Vec Idealize.ShloMosaic.Ideal S16x8 .f32) (j : S10000x8.Idx) :
    k1_pay1 x0 x1 x2 j = ∑ k : dot_S10000x16_S16x8_S10000x8_1_0_0_1_n_n.contr.Idx,
      max (x0 (dot_S10000x16_S16x8_S10000x8_1_0_0_1_n_n.lhsIdx j k) + x1 (ix2 (0 : Fin 1) (dot_S10000x16_S16x8_S10000x8_1_0_0_1_n_n.lhsIdx j k 1)))
          (FloatOps.ofBits (F := Idealize.ShloMosaic.Ideal) .f32 0x00000000#32)
        * x2 (dot_S10000x16_S16x8_S10000x8_1_0_0_1_n_n.rhsIdx j k) := by
  unfold k1_pay1
  refine (Ideal.matmul_constant_zero_apply dot_S10000x16_S16x8_S10000x8_1_0_0_1_n_n none _ _ j).trans ?_
  refine Finset.sum_congr rfl fun k _ => ?_
  rw [shapeCast_self, shapeCast_self]
  have hb : broadcastTo S10000x16 x1 broadcasts_S1x16_S10000x16 (dot_S10000x16_S16x8_S10000x8_1_0_0_1_n_n.lhsIdx j k)
      = x1 (ix2 (0 : Fin 1) (dot_S10000x16_S16x8_S10000x8_1_0_0_1_n_n.lhsIdx j k 1)) := by
    refine broadcastTo_apply x1 _ _ _ ?_
    intro a
    match a with
    | ⟨0, _⟩ => rfl
    | ⟨1, _⟩ => rfl
  show max (x0 _ + broadcastTo S10000x16 x1 broadcasts_S1x16_S10000x16 (dot_S10000x16_S16x8_S10000x8_1_0_0_1_n_n.lhsIdx j k)) _ * x2 _ = _
  rw [hb]
  rfl

/-- max(a + b, 0) read at an entry: the bias is read at the entry's column. -/
theorem biasRelu16_apply (a : Arr Idealize.ShloMosaic.Ideal ReferenceIdeal.S200000x16 .f32) (b : Arr Idealize.ShloMosaic.Ideal ReferenceIdeal.S1x16 .f32)
    (i : ReferenceIdeal.S200000x16.Idx) :
    biasRelu16 (F := Idealize.ShloMosaic.Ideal) a b i
      = max (a i + b (ix2 (0 : Fin 1) (i 1))) (FloatOps.ofBits (F := Idealize.ShloMosaic.Ideal) .f32 0x00000000#32) := by
  unfold biasRelu16
  have hb : broadcastInDim ReferenceIdeal.S200000x16 ![0, 1] ReferenceIdeal.Facts₀.bcast_S1x16_S200000x16_0_1 b i = b (ix2 (0 : Fin 1) (i 1)) := by
    refine broadcastInDim_apply ![0, 1] _ b i _ ?_
    intro a
    match a with
    | ⟨0, _⟩ => rfl
    | ⟨1, _⟩ => rfl
  show max (a i + broadcastInDim ReferenceIdeal.S200000x16 ![0, 1] ReferenceIdeal.Facts₀.bcast_S1x16_S200000x16_0_1 b i) _ = _
  rw [hb]
  rfl

/-- Where the four windows sit at grid point t: the feature block and the output block at row block t, the bias row and
    the weights whole. -/
theorem window_places : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- What grid point t writes back is row block t of the whole-array second projection of the arrays the region finds. -/
theorem flushed_eq (c : Dev nD) (t : Fin cfg1.N) :
    (dat1 V c).flushed 3 t = ((cfg1.win 3).blk t).view.read (Elt Idealize.ShloMosaic.Ideal)
      (dense2 (F := Idealize.ShloMosaic.Ideal) (V c main_v43) (V c main_v44) (V c main_arg4)) := by
  show (cfg1.win 3).cut (grid1.coords t) ((dat1 V c).after 3 t) = _
  rw [after1_3]
  unfold out1_3
  rw [View.canon_unit_zero origin2]
  simp only [View.ld_unit_zero (S := S10000x16) origin2, View.ld_unit_zero (S := S1x16) origin2, View.ld_unit_zero (S := S16x8) origin2]
  obtain ⟨e0, e1, e2, e3, e4, e5, e6, e7⟩ := window_places t
  funext j
  show k1_pay1 (iblk1 V c 0 t) (iblk1 V c 1 t) (iblk1 V c 2 t) j
    = dense2 (F := Idealize.ShloMosaic.Ideal) (V c main_v43) (V c main_v44) (V c main_arg4) (((cfg1.win 3).blk t).view.emb j)
  refine (block_apply _ _ _ j).trans ?_
  unfold dense2
  simp only [Host.dotGeneral]
  rw [Ideal.dotGeneral_apply]
  refine Finset.sum_congr rfl fun k _ => ?_
  rw [biasRelu16_apply]
  have hl : iblk1 V c 0 t (dot_S10000x16_S16x8_S10000x8_1_0_0_1_n_n.lhsIdx j k)
      = V c main_v43 (ReferenceIdeal.dot_S200000x16_S16x8_S200000x8_1_0_0_1_n_n.lhsIdx (((cfg1.win 3).blk t).view.emb j) k) := by
    show V c main_v43 (((cfg1.win 0).blk t).view.emb (dot_S10000x16_S16x8_S10000x8_1_0_0_1_n_n.lhsIdx j k)) = _
    refine congrArg (V c main_v43) ?_
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 16 + 1 * (k ⟨0, by decide⟩).val = (k ⟨0, by decide⟩).val; omega
  have hb : iblk1 V c 1 t (ix2 (0 : Fin 1) (dot_S10000x16_S16x8_S10000x8_1_0_0_1_n_n.lhsIdx j k 1))
      = V c main_v44 (ix2 (0 : Fin 1) (ReferenceIdeal.dot_S200000x16_S16x8_S200000x8_1_0_0_1_n_n.lhsIdx (((cfg1.win 3).blk t).view.emb j) k 1)) := by
    show V c main_v44 (((cfg1.win 1).blk t).view.emb (ix2 (0 : Fin 1) (dot_S10000x16_S16x8_S10000x8_1_0_0_1_n_n.lhsIdx j k 1))) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 16 + 1 * (k ⟨0, by decide⟩).val = (k ⟨0, by decide⟩).val; omega
  have hr : iblk1 V c 2 t (dot_S10000x16_S16x8_S10000x8_1_0_0_1_n_n.rhsIdx j k)
      = V c main_arg4 (ReferenceIdeal.dot_S200000x16_S16x8_S200000x8_1_0_0_1_n_n.rhsIdx (((cfg1.win 3).blk t).view.emb j) k) := by
    show V c main_arg4 (((cfg1.win 2).blk t).view.emb (dot_S10000x16_S16x8_S10000x8_1_0_0_1_n_n.rhsIdx j k)) = _
    refine congrArg (V c main_arg4) ?_
    funext a; apply Fin.ext
    match a with
    | ⟨0, _⟩ => show win1_2.index t (0 : Fin 2) * 16 + 1 * (k ⟨0, by decide⟩).val = (k ⟨0, by decide⟩).val; omega
    | ⟨1, _⟩ => show win1_2.index t (1 : Fin 2) * 8 + 1 * (j 1).val = win1_3.index t (1 : Fin 2) * 8 + 1 * (j 1).val; omega
  rw [hl, hb, hr]

/-- A node row lies in grid point t's output block iff it is one of the 10000 rows from 10000·t on. -/
theorem mem_block (t : Fin cfg1.N) (i : ReferenceIdeal.S200000x8.Idx) :
    i ∈ ((cfg1.win 3).blk t).view.set ↔ ∀ a : Fin 2, win1_3.index t a * S10000x8.size a ≤ (i a).val ∧ (i a).val < win1_3.index t a * S10000x8.size a + S10000x8.size a := by
  show i ∈ ((View.whole main_v45).slice (win1_3.rect t)).set ↔ _
  rw [View.set_slice_whole, Rect.mem_set_unit]
  exact Iff.rfl

/-- Every entry of the result is written by the grid point of its row's block. -/
theorem covered (i : ReferenceIdeal.S200000x8.Idx) : ∃ t : Fin cfg1.N, (cfg1.win 3).flush t = true ∧ i ∈ ((cfg1.win 3).blk t).view.set := by
  have hi0 : (i 0).val < 200000 := (i 0).isLt
  have hi1 : (i 1).val < 8 := (i 1).isLt
  have hN : cfg1.N = 20 := N_1
  let t : Fin cfg1.N := ⟨(i 0).val / 10000, by rw [hN]; omega⟩
  obtain ⟨e0, e1, e2, e3, e4, e5, e6, e7⟩ := window_places t
  have ht : t.val = (i 0).val / 10000 := rfl
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 8 ≤ (i 1).val ∧ (i 1).val < win1_3.index t (1 : Fin 2) * 8 + 8; omega

/-- The region leaves in its output array the second projection of the arrays it found. -/
theorem final (c : Dev nD) :
    (dat1 V c).arrAt 3 cfg1.N = dense2 (F := Idealize.ShloMosaic.Ideal) (V c main_v43) (V c main_v44) (V c main_arg4) :=
  (dat1 V c).arrAt_eq_of_cover 3 _ (fun t _ => flushed_eq V c t) covered

end Cert.Gcn.Project2

end
-- ==== Proof.Region2.lean ====
/-
  The head as the kernel computes it: twenty row blocks of 10000 nodes; each block adds the bias row to the aggregated
  features, clamps at zero, multiplies by the 8 x 1 weight column, adds the output bias and applies the logistic function.
  Over the extended reals the logistic function is 1 / (1 + exp (-z)) by definition, so row r of the result is the whole-array
  `Cert.Gcn.dense3` of the arrays the region finds when it is entered, at row r.
-/
import proofs.«113324_j22179211117042_1_alg».proof.Proof.Gen.KernelIdeal.Frame
import proofs.«113324_j22179211117042_1_alg».proof.Proof.Layers
import Idealize.ShloMosaic.Lib.Pipeline.Value
import Idealize.ShloMosaic.Lib.ValueIdx
import Idealize.ShloMosaic.Lib.KernelVsHost
import Idealize.ShloMosaic.Lib.IdealHost
import Idealize.ShloMosaic.PureOps.Ideal.Laws

set_option maxRecDepth 16384

noncomputable section

namespace Cert.Gcn.Head

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2 broadcast_apply)

variable (V : (c : Dev nD) → (b : Ref sig .tc) → Buf (Elt Idealize.ShloMosaic.Ideal) ((c : Thread nD τ).loc b))

theorem origin2 : (![0, 0] : Fin 2 → Nat) = fun _ => 0 := funext fun a => by fin_cases a <;> rfl

/-- A block's entry: the logistic function of the sum over the 8 features of the clamped biased feature times its weight,
    plus the output bias. -/
theorem block_apply (x0 : Vec Idealize.ShloMosaic.Ideal S10000x8 .f32) (x1 : Vec Idealize.ShloMosaic.Ideal S1x8 .f32)
    (x2 : Vec Idealize.ShloMosaic.Ideal S8x1 .f32) (x3 : Vec Idealize.ShloMosaic.Ideal S1x1 .f32) (j : S10000x1.Idx) :
    k2_pay1 x0 x1 x2 x3 j = Ideal.logistic ((∑ k : dot_S10000x8_S8x1_S10000x1_1_0_0_1_n_n.contr.Idx,
      max (x0 (dot_S10000x8_S8x1_S10000x1_1_0_0_1_n_n.lhsIdx j k)
            + x1 (ix2 (0 : Fin 1) (dot_S10000x8_S8x1_S10000x1_1_0_0_1_n_n.lhsIdx j k 1))) 0
        * x2 (dot_S10000x8_S8x1_S10000x1_1_0_0_1_n_n.rhsIdx j k)) + x3 (ix2 (0 : Fin 1) (0 : Fin 1))) := by
  unfold k2_pay1
  rw [shapeCast_self, shapeCast_self, shapeCast_self]
  show Ideal.logistic ((matmul (F := Idealize.ShloMosaic.Ideal) dot_S10000x8_S8x1_S10000x1_1_0_0_1_n_n none _ _ (constant S10000x1 .f32 0x00000000#32) j : EReal)
      + (broadcastTo S10000x1 x3 broadcasts_S1x1_S10000x1 j : EReal)) = _
  refine congrArg Ideal.logistic (congrArg₂ (· + ·) ?_ ?_)
  · refine (Ideal.matmul_constant_zero_apply _ none _ _ j).trans (Finset.sum_congr rfl fun k _ => ?_)
    show max (x0 (dot_S10000x8_S8x1_S10000x1_1_0_0_1_n_n.lhsIdx j k)
        + broadcastTo S10000x8 x1 broadcasts_S1x8_S10000x8 (dot_S10000x8_S8x1_S10000x1_1_0_0_1_n_n.lhsIdx j k))
        (Ideal.ofBits .f32 0x00000000#32) * x2 (dot_S10000x8_S8x1_S10000x1_1_0_0_1_n_n.rhsIdx j k) = _
    rw [Ideal.ofBits_zero_f32, broadcastTo_apply x1 broadcasts_S1x8_S10000x8 (dot_S10000x8_S8x1_S10000x1_1_0_0_1_n_n.lhsIdx j k)
      (ix2 (0 : Fin 1) (dot_S10000x8_S8x1_S10000x1_1_0_0_1_n_n.lhsIdx j k 1)) (by
        intro a
        match a with
        | ⟨0, _⟩ => rfl
        | ⟨1, _⟩ => rfl)]
  · exact broadcastTo_apply x3 broadcasts_S1x1_S10000x1 j (ix2 (0 : Fin 1) (0 : Fin 1)) (by
      intro a
      match a with
      | ⟨0, _⟩ => rfl
      | ⟨1, _⟩ => rfl)

/-- The specification's entry in the same words: the logistic function of the same sum plus the output bias. -/
theorem dense3_apply (a : Arr Idealize.ShloMosaic.Ideal ReferenceIdeal.S200000x8 .f32) (b : Arr Idealize.ShloMosaic.Ideal ReferenceIdeal.S1x8 .f32)
    (w : Arr Idealize.ShloMosaic.Ideal ReferenceIdeal.S8x1 .f32) (bf : Arr Idealize.ShloMosaic.Ideal ReferenceIdeal.S1x1 .f32) (i : ReferenceIdeal.S200000x1.Idx) :
    dense3 (F := Idealize.ShloMosaic.Ideal) a b w bf i
      = Ideal.logistic ((∑ k : ReferenceIdeal.dot_S200000x8_S8x1_S200000x1_1_0_0_1_n_n.contr.Idx,
        max (a (ReferenceIdeal.dot_S200000x8_S8x1_S200000x1_1_0_0_1_n_n.lhsIdx i k)
              + b (ix2 (0 : Fin 1) (ReferenceIdeal.dot_S200000x8_S8x1_S200000x1_1_0_0_1_n_n.lhsIdx i k 1))) 0
          * w (ReferenceIdeal.dot_S200000x8_S8x1_S200000x1_1_0_0_1_n_n.rhsIdx i k)) + bf (ix2 (0 : Fin 1) (0 : Fin 1))) := by
  unfold dense3 biasRelu8
  show Ideal.div (Ideal.ofBits .f32 0x3F800000#32) (Ideal.ofBits .f32 0x3F800000#32
      + Ideal.exp (-((FloatOps.dotGeneral (F := Idealize.ShloMosaic.Ideal) ReferenceIdeal.dot_S200000x8_S8x1_S200000x1_1_0_0_1_n_n none .single _ w i : EReal)
        + (broadcastInDim ReferenceIdeal.S200000x1 ![0, 1] ReferenceIdeal.Gen.bcast_S1x1_S200000x1_0_1 bf i : EReal)))) = _
  rw [Ideal.ofBits_one_f32]
  unfold Ideal.logistic
  refine congrArg (fun z : EReal => Ideal.div 1 (1 + Ideal.exp (-z))) (congrArg₂ (· + ·) ?_ ?_)
  · refine (Ideal.dotGeneral_apply _ none _ _ _ i).trans (Finset.sum_congr rfl fun k _ => ?_)
    show max (a (ReferenceIdeal.dot_S200000x8_S8x1_S200000x1_1_0_0_1_n_n.lhsIdx i k)
        + broadcastInDim ReferenceIdeal.S200000x8 ![0, 1] ReferenceIdeal.Gen.bcast_S1x8_S200000x8_0_1 b (ReferenceIdeal.dot_S200000x8_S8x1_S200000x1_1_0_0_1_n_n.lhsIdx i k))
        (Ideal.ofBits .f32 0x00000000#32) * w (ReferenceIdeal.dot_S200000x8_S8x1_S200000x1_1_0_0_1_n_n.rhsIdx i k) = _
    rw [Ideal.ofBits_zero_f32, broadcastInDim_apply ![0, 1] ReferenceIdeal.Gen.bcast_S1x8_S200000x8_0_1 b
      (ReferenceIdeal.dot_S200000x8_S8x1_S200000x1_1_0_0_1_n_n.lhsIdx i k)
      (ix2 (0 : Fin 1) (ReferenceIdeal.dot_S200000x8_S8x1_S200000x1_1_0_0_1_n_n.lhsIdx i k 1)) (by
        intro a
        match a with
        | ⟨0, _⟩ => rfl
        | ⟨1, _⟩ => rfl)]
  · exact broadcastInDim_apply ![0, 1] ReferenceIdeal.Gen.bcast_S1x1_S200000x1_0_1 bf i (ix2 (0 : Fin 1) (0 : Fin 1)) (by
      intro a
      match a with
      | ⟨0, _⟩ => rfl
      | ⟨1, _⟩ => rfl)

/-- Where the five windows sit at grid point t: the feature block and the output block at row block t, the bias row, the
    weights and the output bias whole. -/
theorem window_places : ∀ t : Fin cfg2.N,
    win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) = t.val :=
  (by decide +kernel : ∀ t : Fin grid2.N, _)

/-- What grid point t writes back is row block t of the head of the arrays the region finds. -/
theorem flushed_eq (c : Dev nD) (t : Fin cfg2.N) :
    (dat2 V c).flushed 4 t = ((cfg2.win 4).blk t).view.read (Elt Idealize.ShloMosaic.Ideal)
      (dense3 (F := Idealize.ShloMosaic.Ideal) (V c main_v58) (V c main_v59) (V c main_arg6) (V c main_v60)) := by
  show (cfg2.win 4).cut (grid2.coords t) ((dat2 V c).after 4 t) = _
  rw [after2_4]
  unfold out2_4
  rw [View.canon_unit_zero origin2]
  simp only [View.ld_unit_zero (S := S10000x8) origin2, View.ld_unit_zero (S := S1x8) origin2,
    View.ld_unit_zero (S := S8x1) origin2, View.ld_unit_zero (S := S1x1) origin2]
  obtain ⟨e0, e1, e2, e3, e4, e5, e6, e7, e8, e9⟩ := window_places t
  funext j
  show k2_pay1 (iblk2 V c 0 t) (iblk2 V c 1 t) (iblk2 V c 2 t) (iblk2 V c 3 t) j
    = dense3 (F := Idealize.ShloMosaic.Ideal) (V c main_v58) (V c main_v59) (V c main_arg6) (V c main_v60) (((cfg2.win 4).blk t).view.emb j)
  refine (block_apply _ _ _ _ j).trans ?_
  refine Eq.trans ?_ (dense3_apply _ _ _ _ _).symm
  refine congrArg Ideal.logistic (congrArg₂ (· + ·) (Finset.sum_congr rfl fun k _ => ?_) ?_)
  · have hl : iblk2 V c 0 t (dot_S10000x8_S8x1_S10000x1_1_0_0_1_n_n.lhsIdx j k)
        = V c main_v58 (ReferenceIdeal.dot_S200000x8_S8x1_S200000x1_1_0_0_1_n_n.lhsIdx (((cfg2.win 4).blk t).view.emb j) k) := by
      show V c main_v58 (((cfg2.win 0).blk t).view.emb (dot_S10000x8_S8x1_S10000x1_1_0_0_1_n_n.lhsIdx j k)) = _
      refine congrArg (V c main_v58) ?_
      funext a; apply Fin.ext
      match a with
      | ⟨0, _⟩ => show win2_0.index t (0 : Fin 2) * 10000 + 1 * (j 0).val = win2_4.index t (0 : Fin 2) * 10000 + 1 * (j 0).val; omega
      | ⟨1, _⟩ => show win2_0.index t (1 : Fin 2) * 8 + 1 * (k ⟨0, by decide⟩).val = (k ⟨0, by decide⟩).val; omega
    have hb : iblk2 V c 1 t (ix2 (0 : Fin 1) (dot_S10000x8_S8x1_S10000x1_1_0_0_1_n_n.lhsIdx j k 1))
        = V c main_v59 (ix2 (0 : Fin 1) (ReferenceIdeal.dot_S200000x8_S8x1_S200000x1_1_0_0_1_n_n.lhsIdx (((cfg2.win 4).blk t).view.emb j) k 1)) := by
      show V c main_v59 (((cfg2.win 1).blk t).view.emb (ix2 (0 : Fin 1) (dot_S10000x8_S8x1_S10000x1_1_0_0_1_n_n.lhsIdx j k 1))) = _
      refine congrArg (V c main_v59) ?_
      funext a; apply Fin.ext
      match a with
      | ⟨0, _⟩ => show win2_1.index t (0 : Fin 2) * 1 + 1 * 0 = 0; omega
      | ⟨1, _⟩ => show win2_1.index t (1 : Fin 2) * 8 + 1 * (k ⟨0, by decide⟩).val = (k ⟨0, by decide⟩).val; omega
    have hr : iblk2 V c 2 t (dot_S10000x8_S8x1_S10000x1_1_0_0_1_n_n.rhsIdx j k)
        = V c main_arg6 (ReferenceIdeal.dot_S200000x8_S8x1_S200000x1_1_0_0_1_n_n.rhsIdx (((cfg2.win 4).blk t).view.emb j) k) := by
      show V c main_arg6 (((cfg2.win 2).blk t).view.emb (dot_S10000x8_S8x1_S10000x1_1_0_0_1_n_n.rhsIdx j k)) = _
      refine congrArg (V c main_arg6) ?_
      funext a; apply Fin.ext
      match a with
      | ⟨0, _⟩ => show win2_2.index t (0 : Fin 2) * 8 + 1 * (k ⟨0, by decide⟩).val = (k ⟨0, by decide⟩).val; omega
      | ⟨1, _⟩ => show win2_2.index t (1 : Fin 2) * 1 + 1 * (j 1).val = win2_4.index t (1 : Fin 2) * 1 + 1 * (j 1).val; omega
    rw [hl, hb, hr]
  · show V c main_v60 (((cfg2.win 3).blk t).view.emb (ix2 (0 : Fin 1) (0 : Fin 1))) = _
    refine congrArg (V c main_v60) ?_
    funext a; apply Fin.ext
    match a with
    | ⟨0, _⟩ => show win2_3.index t (0 : Fin 2) * 1 + 1 * 0 = 0; omega
    | ⟨1, _⟩ => show win2_3.index t (1 : Fin 2) * 1 + 1 * 0 = 0; omega

/-- A node row lies in grid point t's output block iff it is one of the 10000 rows from 10000·t on. -/
theorem mem_block (t : Fin cfg2.N) (i : S200000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v61).slice (win2_4.rect t)).set ↔ _
  rw [View.set_slice_whole, Rect.mem_set_unit]
  exact Iff.rfl

/-- Every entry of the result is written by the grid point of its row's block. -/
theorem covered (i : S200000x1.Idx) : ∃ t : Fin cfg2.N, (cfg2.win 4).flush t = true ∧ i ∈ ((cfg2.win 4).blk t).view.set := by
  have hi0 : (i 0).val < 200000 := (i 0).isLt
  have hi1 : (i 1).val < 1 := (i 1).isLt
  have hN : cfg2.N = 20 := N_2
  let t : Fin cfg2.N := ⟨(i 0).val / 10000, by rw [hN]; omega⟩
  obtain ⟨e0, e1, e2, e3, e4, e5, e6, e7, e8, e9⟩ := window_places t
  have ht : t.val = (i 0).val / 10000 := rfl
  refine ⟨t, flush2_4 t, ?_⟩
  rw [mem_block]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 1 ≤ (i 1).val ∧ (i 1).val < win2_4.index t (1 : Fin 2) * 1 + 1; omega

/-- The region leaves in its output array the head of the arrays it found. -/
theorem final (c : Dev nD) :
    (dat2 V c).arrAt 4 cfg2.N = dense3 (F := Idealize.ShloMosaic.Ideal) (V c main_v58) (V c main_v59) (V c main_arg6) (V c main_v60) :=
  (dat2 V c).arrAt_eq_of_cover 4 _ (fun t _ => flushed_eq V c t) covered

end Cert.Gcn.Head

end
-- ==== Proof.HostWalk.lean ====
/-
  What the kernel program's host code leaves in the buffers each pallas_call reads, as functions of the argument arrays:
  the sender and receiver id lists and the edge weights (computed once, before the first call, and untouched afterwards),
  the aggregation of each call's output over the edges, the bias vectors as one-row matrices, and the weight matrices,
  which are the arguments themselves.
-/
import proofs.«113324_j22179211117042_1_alg».proof.Proof.Gen.KernelIdeal.Frame
import proofs.«113324_j22179211117042_1_alg».proof.Proof.Layers
import Idealize.ShloMosaic.Lib.Pipeline.Value
import Idealize.ShloMosaic.Lib.StableHlo.Run
import Idealize.ShloMosaic.Lib.ValueIdx

set_option maxRecDepth 16384

noncomputable section

namespace Cert.Gcn.Boundary

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## A vector as a one-row matrix -/

/-- Reshaping a vector of `n` entries to one row is broadcasting it along axis 1: both read entry t at entry (0, t). -/
theorem shapeCast_row_eq_broadcastInDim {α : Type} {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have hi0 : (i 0).val = 0 := by have := (i 0).isLt; have e : (i 0).val < 1 := this; omega
  have e2 := shapeCast_apply x h1 i (ix1 (i 1 : Fin n)) (by
    rw [Shape.rowMajor_val_two, Shape.rowMajor_val_one]; show (i 1).val = (i 0).val * n + (i 1).val; rw [hi0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

/-! ## Each host stretch, from any contents `V` of the buffers at its start

Every buffer a stretch writes is the stretch's operations applied, in order, to the buffers they read; a buffer it does
not write is as it was. -/

section Steps
variable (V : Valuation τ sig (Elt F))

/-! ### Before the first call, part one: the id lists and the pieces of 1/sqrt(degree) -/

theorem src_step : StableHlo.after hostOps0 V (Proc.devRef .tc main_v5) = srcIds (V (Proc.devRef .tc main_arg1)) := by
  after_results
  rfl
theorem dst_step : StableHlo.after hostOps0 V (Proc.devRef .tc main_v6) = dstIds (V (Proc.devRef .tc main_arg1)) := by
  after_results
  rfl
/-- Where the degree is positive. -/
theorem pos_step : StableHlo.after hostOps0 V (Proc.devRef .tc main_v12)
    = cmpf .ogt (degree (dstIds (V (Proc.devRef .tc main_arg1)))) (broadcastInDim S200000 ![] bcast_S_S200000 (constant S_ .f32 0x00000000#32)) := by
  after_results
  rfl
/-- 1/sqrt(degree) everywhere. -/
theorem rsqrt_step : StableHlo.after hostOps0 V (Proc.devRef .tc main_v13) = Host.rsqrt (degree (dstIds (V (Proc.devRef .tc main_arg1)))) := by
  after_results
  rfl
/-- The zero that replaces it elsewhere. -/
theorem zero_step : StableHlo.after hostOps0 V (Proc.devRef .tc main_cst_2) = constant S_ .f32 0x00000000#32 := by
  after_results

/-! ### Part two: the choice between the two -/

theorem where_step : StableHlo.after hostOps0_1 V (Proc.devRef .tc main_v14)
    = select (V (Proc.devRef .tc main_v12)) (V (Proc.devRef .tc main_v13)) (broadcastInDim S200000 ![] bcast_S_S200000 (id (V (Proc.devRef .tc main_cst_2)))) := by
  after_results
  rfl
theorem src_keep1 : StableHlo.after hostOps0_1 V (Proc.devRef .tc main_v5) = V (Proc.devRef .tc main_v5) := by
  after_results
theorem dst_keep1 : StableHlo.after hostOps0_1 V (Proc.devRef .tc main_v6) = V (Proc.devRef .tc main_v6) := by
  after_results

/-! ### Part three: the weight of every edge -/

theorem norm_step : StableHlo.after hostOps0_2 V (Proc.devRef .tc main_v29)
    = mulf (Host.gather gather_S200000_S6600000x1_S6600000_n_0_n_n_0_1_1 (V (Proc.devRef .tc main_v14)) (wrapCol (V (Proc.devRef .tc main_v5))))
        (Host.gather gather_S200000_S6600000x1_S6600000_n_0_n_n_0_1_1 (V (Proc.devRef .tc main_v14)) (wrapCol (V (Proc.devRef .tc main_v6)))) := by
  after_results_simp
  rfl
theorem src_keep2 : StableHlo.after hostOps0_2 V (Proc.devRef .tc main_v5) = V (Proc.devRef .tc main_v5) := by
  after_results
theorem dst_keep2 : StableHlo.after hostOps0_2 V (Proc.devRef .tc main_v6) = V (Proc.devRef .tc main_v6) := by
  after_results

/-! ### Between the first and the second call -/

theorem agg16_step : StableHlo.after hostOps1 V (Proc.devRef .tc main_v43)
    = aggregate16 (V (Proc.devRef .tc main_v30)) (V (Proc.devRef .tc main_v5)) (V (Proc.devRef .tc main_v6)) (V (Proc.devRef .tc main_v29)) := by
  after_results_simp
  rfl
theorem b1_step : StableHlo.after hostOps1 V (Proc.devRef .tc main_v44) = row16 (V (Proc.devRef .tc main_arg3)) := by
  after_results
  exact shapeCast_row_eq_broadcastInDim (n := 16) _ _ _
theorem src_keep3 : StableHlo.after hostOps1 V (Proc.devRef .tc main_v5) = V (Proc.devRef .tc main_v5) := by
  after_results
theorem dst_keep3 : StableHlo.after hostOps1 V (Proc.devRef .tc main_v6) = V (Proc.devRef .tc main_v6) := by
  after_results
theorem norm_keep3 : StableHlo.after hostOps1 V (Proc.devRef .tc main_v29) = V (Proc.devRef .tc main_v29) := by
  after_results

/-! ### Between the second and the third call -/

theorem agg8_step : StableHlo.after hostOps2 V (Proc.devRef .tc main_v58)
    = aggregate8 (V (Proc.devRef .tc main_v45)) (V (Proc.devRef .tc main_v5)) (V (Proc.devRef .tc main_v6)) (V (Proc.devRef .tc main_v29)) := by
  after_results_simp
  rfl
theorem b2_step : StableHlo.after hostOps2 V (Proc.devRef .tc main_v59) = row8 (V (Proc.devRef .tc main_arg5)) := by
  after_results
  exact shapeCast_row_eq_broadcastInDim (n := 8) _ _ _
theorem bfc_step : StableHlo.after hostOps2 V (Proc.devRef .tc main_v60) = row1 (V (Proc.devRef .tc main_arg7)) := by
  after_results
  exact shapeCast_row_eq_broadcastInDim (n := 1) _ _ _

end Steps

/-! ## The id lists and the edge weights, boundary by boundary

They are computed before the first call from the edge list alone; no later host operation and no call writes them. -/

theorem src_at1 (c : Dev nD) : W1 m ρ c (Proc.devRef .tc main_v5) = srcIds (m ((c : Thread nD τ).loc main_arg1)) := src_step (W0 m ρ c)
theorem dst_at1 (c : Dev nD) : W1 m ρ c (Proc.devRef .tc main_v6) = dstIds (m ((c : Thread nD τ).loc main_arg1)) := dst_step (W0 m ρ c)
theorem src_at2 (c : Dev nD) : W2 m ρ c (Proc.devRef .tc main_v5) = srcIds (m ((c : Thread nD τ).loc main_arg1)) := (src_keep1 (W1 m ρ c)).trans (src_at1 m ρ c)
theorem dst_at2 (c : Dev nD) : W2 m ρ c (Proc.devRef .tc main_v6) = dstIds (m ((c : Thread nD τ).loc main_arg1)) := (dst_keep1 (W1 m ρ c)).trans (dst_at1 m ρ c)

/-- 1/sqrt(degree) where the degree is positive, 0 elsewhere. -/
theorem where_at2 (c : Dev nD) : W2 m ρ c (Proc.devRef .tc main_v14) = invSqrtDeg (dstIds (m ((c : Thread nD τ).loc main_arg1))) := by
  refine (where_step (W1 m ρ c)).trans ?_
  rw [show W1 m ρ c (Proc.devRef .tc main_v12) = _ from pos_step (W0 m ρ c),
    show W1 m ρ c (Proc.devRef .tc main_v13) = _ from rsqrt_step (W0 m ρ c),
    show W1 m ρ c (Proc.devRef .tc main_cst_2) = _ from zero_step (W0 m ρ c)]
  rfl

/-! ## Entering the first call -/

theorem x_at3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem w1_at3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem src_at3 (c : Dev nD) : W3 m ρ c (Proc.devRef .tc main_v5) = srcIds (m ((c : Thread nD τ).loc main_arg1)) :=
  (src_keep2 (W2 m ρ c)).trans (src_at2 m ρ c)
theorem dst_at3 (c : Dev nD) : W3 m ρ c (Proc.devRef .tc main_v6) = dstIds (m ((c : Thread nD τ).loc main_arg1)) :=
  (dst_keep2 (W2 m ρ c)).trans (dst_at2 m ρ c)
theorem norm_at3 (c : Dev nD) : W3 m ρ c (Proc.devRef .tc main_v29)
    = edgeNorm (srcIds (m ((c : Thread nD τ).loc main_arg1))) (dstIds (m ((c : Thread nD τ).loc main_arg1))) := by
  refine (norm_step (W2 m ρ c)).trans ?_
  rw [where_at2 m ρ c, src_at2 m ρ c, dst_at2 m ρ c]
  rfl

/-- The other arguments at the first call's entry: the host code before it writes none of them. -/
theorem b1_at3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem w2_at3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem b2_at3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results
theorem wfc_at3 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results
theorem bfc_at3 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results

/-! ## Across the first call: it writes its own three arrays only -/

theorem src_at4 (c : Dev nD) : W4 m ρ c (Proc.devRef .tc main_v5) = srcIds (m ((c : Thread nD τ).loc main_arg1)) :=
  (W4_of_ne m ρ c main_v5 (by decide)).trans (src_at3 m ρ c)
theorem dst_at4 (c : Dev nD) : W4 m ρ c (Proc.devRef .tc main_v6) = dstIds (m ((c : Thread nD τ).loc main_arg1)) :=
  (W4_of_ne m ρ c main_v6 (by decide)).trans (dst_at3 m ρ c)
theorem norm_at4 (c : Dev nD) : W4 m ρ c (Proc.devRef .tc main_v29) = edgeNorm (srcIds (m ((c : Thread nD τ).loc main_arg1))) (dstIds (m ((c : Thread nD τ).loc main_arg1))) :=
  (W4_of_ne m ρ c main_v29 (by decide)).trans (norm_at3 m ρ c)
theorem b1_at4 (c : Dev nD) : W4 m ρ c (Proc.devRef .tc main_arg3) = m ((c : Thread nD τ).loc main_arg3) :=
  (W4_of_ne m ρ c main_arg3 (by decide)).trans (b1_at3 m ρ c)
theorem w2_at4 (c : Dev nD) : W4 m ρ c (Proc.devRef .tc main_arg4) = m ((c : Thread nD τ).loc main_arg4) :=
  (W4_of_ne m ρ c main_arg4 (by decide)).trans (w2_at3 m ρ c)
theorem b2_at4 (c : Dev nD) : W4 m ρ c (Proc.devRef .tc main_arg5) = m ((c : Thread nD τ).loc main_arg5) :=
  (W4_of_ne m ρ c main_arg5 (by decide)).trans (b2_at3 m ρ c)
theorem wfc_at4 (c : Dev nD) : W4 m ρ c (Proc.devRef .tc main_arg6) = m ((c : Thread nD τ).loc main_arg6) :=
  (W4_of_ne m ρ c main_arg6 (by decide)).trans (wfc_at3 m ρ c)
theorem bfc_at4 (c : Dev nD) : W4 m ρ c (Proc.devRef .tc main_arg7) = m ((c : Thread nD τ).loc main_arg7) :=
  (W4_of_ne m ρ c main_arg7 (by decide)).trans (bfc_at3 m ρ c)

/-! ## Entering the second call -/

theorem agg_at5 (c : Dev nD) : W5 m ρ c (Proc.devRef .tc main_v43)
    = aggregate16 (W4 m ρ c (Proc.devRef .tc main_v30)) (srcIds (m ((c : Thread nD τ).loc main_arg1))) (dstIds (m ((c : Thread nD τ).loc main_arg1)))
        (edgeNorm (srcIds (m ((c : Thread nD τ).loc main_arg1))) (dstIds (m ((c : Thread nD τ).loc main_arg1)))) := by
  refine (agg16_step (W4 m ρ c)).trans ?_
  rw [src_at4 m ρ c, dst_at4 m ρ c, norm_at4 m ρ c]
theorem b1_at5 (c : Dev nD) : W5 m ρ c (Proc.devRef .tc main_v44) = row16 (m ((c : Thread nD τ).loc main_arg3)) := by
  refine (b1_step (W4 m ρ c)).trans ?_
  rw [b1_at4 m ρ c]
theorem w2_at5 (c : Dev nD) : W5 m ρ c (Proc.devRef .tc main_arg4) = m ((c : Thread nD τ).loc main_arg4) := by
  show StableHlo.after hostOps1 (W4 m ρ c) (Proc.devRef .tc main_arg4) = _
  after_results
  exact w2_at4 m ρ c

theorem src_at5 (c : Dev nD) : W5 m ρ c (Proc.devRef .tc main_v5) = srcIds (m ((c : Thread nD τ).loc main_arg1)) :=
  (src_keep3 (W4 m ρ c)).trans (src_at4 m ρ c)
theorem dst_at5 (c : Dev nD) : W5 m ρ c (Proc.devRef .tc main_v6) = dstIds (m ((c : Thread nD τ).loc main_arg1)) :=
  (dst_keep3 (W4 m ρ c)).trans (dst_at4 m ρ c)
theorem norm_at5 (c : Dev nD) : W5 m ρ c (Proc.devRef .tc main_v29) = edgeNorm (srcIds (m ((c : Thread nD τ).loc main_arg1))) (dstIds (m ((c : Thread nD τ).loc main_arg1))) :=
  (norm_keep3 (W4 m ρ c)).trans (norm_at4 m ρ c)
theorem b2_at5 (c : Dev nD) : W5 m ρ c (Proc.devRef .tc main_arg5) = m ((c : Thread nD τ).loc main_arg5) := by
  show StableHlo.after hostOps1 (W4 m ρ c) (Proc.devRef .tc main_arg5) = _
  after_results
  exact b2_at4 m ρ c
theorem wfc_at5 (c : Dev nD) : W5 m ρ c (Proc.devRef .tc main_arg6) = m ((c : Thread nD τ).loc main_arg6) := by
  show StableHlo.after hostOps1 (W4 m ρ c) (Proc.devRef .tc main_arg6) = _
  after_results
  exact wfc_at4 m ρ c
theorem bfc_at5 (c : Dev nD) : W5 m ρ c (Proc.devRef .tc main_arg7) = m ((c : Thread nD τ).loc main_arg7) := by
  show StableHlo.after hostOps1 (W4 m ρ c) (Proc.devRef .tc main_arg7) = _
  after_results
  exact bfc_at4 m ρ c

/-! ## Across the second call: it writes its own four arrays only -/

theorem src_at6 (c : Dev nD) : W6 m ρ c (Proc.devRef .tc main_v5) = srcIds (m ((c : Thread nD τ).loc main_arg1)) :=
  (W6_of_ne m ρ c main_v5 (by decide)).trans (src_at5 m ρ c)
theorem dst_at6 (c : Dev nD) : W6 m ρ c (Proc.devRef .tc main_v6) = dstIds (m ((c : Thread nD τ).loc main_arg1)) :=
  (W6_of_ne m ρ c main_v6 (by decide)).trans (dst_at5 m ρ c)
theorem norm_at6 (c : Dev nD) : W6 m ρ c (Proc.devRef .tc main_v29) = edgeNorm (srcIds (m ((c : Thread nD τ).loc main_arg1))) (dstIds (m ((c : Thread nD τ).loc main_arg1))) :=
  (W6_of_ne m ρ c main_v29 (by decide)).trans (norm_at5 m ρ c)
theorem b2_at6 (c : Dev nD) : W6 m ρ c (Proc.devRef .tc main_arg5) = m ((c : Thread nD τ).loc main_arg5) :=
  (W6_of_ne m ρ c main_arg5 (by decide)).trans (b2_at5 m ρ c)
theorem wfc_at6 (c : Dev nD) : W6 m ρ c (Proc.devRef .tc main_arg6) = m ((c : Thread nD τ).loc main_arg6) :=
  (W6_of_ne m ρ c main_arg6 (by decide)).trans (wfc_at5 m ρ c)
theorem bfc_at6 (c : Dev nD) : W6 m ρ c (Proc.devRef .tc main_arg7) = m ((c : Thread nD τ).loc main_arg7) :=
  (W6_of_ne m ρ c main_arg7 (by decide)).trans (bfc_at5 m ρ c)

/-! ## Entering the third call -/

theorem agg_at7 (c : Dev nD) : W7 m ρ c (Proc.devRef .tc main_v58)
    = aggregate8 (W6 m ρ c (Proc.devRef .tc main_v45)) (srcIds (m ((c : Thread nD τ).loc main_arg1))) (dstIds (m ((c : Thread nD τ).loc main_arg1)))
        (edgeNorm (srcIds (m ((c : Thread nD τ).loc main_arg1))) (dstIds (m ((c : Thread nD τ).loc main_arg1)))) := by
  refine (agg8_step (W6 m ρ c)).trans ?_
  rw [src_at6 m ρ c, dst_at6 m ρ c, norm_at6 m ρ c]
theorem b2_at7 (c : Dev nD) : W7 m ρ c (Proc.devRef .tc main_v59) = row8 (m ((c : Thread nD τ).loc main_arg5)) := by
  refine (b2_step (W6 m ρ c)).trans ?_
  rw [b2_at6 m ρ c]
theorem wfc_at7 (c : Dev nD) : W7 m ρ c (Proc.devRef .tc main_arg6) = m ((c : Thread nD τ).loc main_arg6) := by
  show StableHlo.after hostOps2 (W6 m ρ c) (Proc.devRef .tc main_arg6) = _
  after_results
  exact wfc_at6 m ρ c
theorem bfc_at7 (c : Dev nD) : W7 m ρ c (Proc.devRef .tc main_v60) = row1 (m ((c : Thread nD τ).loc main_arg7)) := by
  refine (bfc_step (W6 m ρ c)).trans ?_
  rw [bfc_at6 m ρ c]

end Cert.Gcn.Boundary

end
-- ==== Proof.KernelValue.lean ====
/-
  The kernel program's result as a function of its arguments. Its three calls leave, one after the other, the first projection,
  the second projection of the aggregated first, and the head of the aggregated second; between the calls the host code
  aggregates over the edges with weights it computed once from the edge list. Composed, that is `Cert.Gcn.network`.
-/
import proofs.«113324_j22179211117042_1_alg».proof.Proof.Region0
import proofs.«113324_j22179211117042_1_alg».proof.Proof.Region1
import proofs.«113324_j22179211117042_1_alg».proof.Proof.Region2
import proofs.«113324_j22179211117042_1_alg».proof.Proof.HostWalk

set_option maxRecDepth 16384

noncomputable section

namespace Cert.Gcn.KernelValue

open Cert.KernelIdeal Cert.KernelIdeal.Gen Idealize.ShloMosaic Idealize.ShloMosaic.TcCoe Idealize.SL.Sem

variable (m : (ℓ : Loc nD τ sig) → Buf (Elt Idealize.ShloMosaic.Ideal) ℓ) (ρ : Dev nD → PrngReg)

/-- After the first call its output array holds the first projection of the node features. -/
theorem proj1_at4 (c : Dev nD) : W4 m ρ c (Proc.devRef .tc main_v30)
    = dense1 (m ((c : Thread nD τ).loc main_arg0)) (m ((c : Thread nD τ).loc main_arg2)) := by
  refine (W4_arr m ρ c 2).trans ((Project1.final (V3 m ρ) c).trans ?_)
  show dense1 (W3 m ρ c (Proc.devRef .tc main_arg0)) (W3 m ρ c (Proc.devRef .tc main_arg2)) = _
  rw [Boundary.x_at3, Boundary.w1_at3]

/-- After the second call its output array holds the second projection of the aggregated first. -/
theorem proj2_at6 (c : Dev nD) : W6 m ρ c (Proc.devRef .tc main_v45)
    = dense2 (aggregate16 (dense1 (m ((c : Thread nD τ).loc main_arg0)) (m ((c : Thread nD τ).loc main_arg2)))
        (srcIds (m ((c : Thread nD τ).loc main_arg1))) (dstIds (m ((c : Thread nD τ).loc main_arg1)))
        (edgeNorm (srcIds (m ((c : Thread nD τ).loc main_arg1))) (dstIds (m ((c : Thread nD τ).loc main_arg1)))))
      (row16 (m ((c : Thread nD τ).loc main_arg3))) (m ((c : Thread nD τ).loc main_arg4)) := by
  refine (W6_arr m ρ c 3).trans ((Project2.final (V5 m ρ) c).trans ?_)
  show dense2 (W5 m ρ c (Proc.devRef .tc main_v43)) (W5 m ρ c (Proc.devRef .tc main_v44)) (W5 m ρ c (Proc.devRef .tc main_arg4)) = _
  rw [Boundary.agg_at5, Boundary.b1_at5, Boundary.w2_at5, proj1_at4]

/-- After the third call the result buffer holds the network of the arguments. -/
theorem result_is_network (c : Dev nD) : W8 m ρ c (Proc.devRef .tc main_v61)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W8_arr m ρ c 4).trans ((Head.final (V7 m ρ) c).trans ?_)
  show dense3 (W7 m ρ c (Proc.devRef .tc main_v58)) (W7 m ρ c (Proc.devRef .tc main_v59)) (W7 m ρ c (Proc.devRef .tc main_arg6)) (W7 m ρ c (Proc.devRef .tc main_v60)) = _
  rw [Boundary.agg_at7, Boundary.b2_at7, Boundary.wfc_at7, Boundary.bfc_at7, proj2_at6]
  rfl

end Cert.Gcn.KernelValue

end
-- ==== Proof.RefNetwork.lean ====
/-
  The reference's result is the network of its arguments: its composed term is, layer for layer, the term `Cert.Gcn.network`
  spells (the edge weights, which the reference derives once per layer, are one function of the edge list).
-/
import proofs.«113324_j22179211117042_1_alg».proof.Proof.Layers
import proofs.«113324_j22179211117042_1_alg».proof.Proof.RefRun

noncomputable section

namespace Cert.Gcn

open Cert.ReferenceIdeal Idealize.ShloMosaic Idealize.ShloMosaic.TcCoe Idealize.SL.Sem

variable {F : FTy → Type} [FloatOps F]

set_option maxRecDepth 16384 in
theorem reference_is_network (m : (ℓ : Loc nD τ sig) → Buf (Elt F) ℓ) (c : Dev nD) :
    Cert.ReferenceIdeal.ValueP.res_main_v101 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v101 network dense3 dense2 dense1 biasRelu8 biasRelu16 aggregate8 aggregate16 row16 row8 row1 edgeNorm invSqrtDeg degree wrapCol idCol srcIds dstIds
  rfl

end Cert.Gcn

end
-- ==== Proof.lean ====
/-
  Two programs for one network: a two-layer graph convolution (project, aggregate over the edges with symmetric degree weights,
  add a bias, clamp at zero) followed by a dense head and the logistic function. The kernel program runs the three dense stages
  as blocked matrix products over twenty row blocks of 10000 nodes and leaves the aggregation to host code; the reference runs
  everything as whole-array host operations. Over the extended reals a blocked product into a zero accumulator is the whole
  product row by row, a pass through bf16 changes nothing, and the logistic function is 1 / (1 + exp (-z)) by definition, so both
  results are the same function `Cert.Gcn.network` of the arguments (no finiteness of the inputs is needed: the two sides are
  the same operations in the same order, index by index). The ideal pass rewrote nothing, so `preserves` is trivial.
-/
import proofs.«113324_j22179211117042_1_alg».proof.Defs
import proofs.«113324_j22179211117042_1_alg».proof.Proof.Gen.Kernel
import proofs.«113324_j22179211117042_1_alg».proof.Proof.Gen.Kernel.Frame
import proofs.«113324_j22179211117042_1_alg».proof.Proof.Gen.KernelIdeal
import proofs.«113324_j22179211117042_1_alg».proof.Proof.Gen.KernelIdeal.Frame
import proofs.«113324_j22179211117042_1_alg».proof.Proof.Gen.ReferenceIdeal
import proofs.«113324_j22179211117042_1_alg».proof.Proof.Gen.Pre_finite_inputs
import proofs.«113324_j22179211117042_1_alg».proof.Proof.KernelRun
import proofs.«113324_j22179211117042_1_alg».proof.Proof.KernelValue
import proofs.«113324_j22179211117042_1_alg».proof.Proof.RefNetwork
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network of the (agreeing) arguments in their result buffers. -/
theorem algebraic : Cert.algebraic_KernelIdeal_ReferenceIdeal := by
  intro m ρ m' ρ' _ hagree
  refine ⟨_, (θ_run Cert.KernelIdeal.defs _ _).mono
      (fun r h c => ⟨(h c).1.trans (Cert.Gcn.KernelValue.result_is_network m ρ c), (h c).2⟩)
      (Cert.KernelIdeal.Gen.run_named (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7⟩ := hagree c
  rw [Cert.Gcn.reference_is_network, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
